-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128 : Shape := ⟨1, ![128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_arg2 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg1 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  let main_c_7 : IVec S_ 32 := constantI S_ 32 4294867296#32
  let main_v21 : IVec S1600000 32 := broadcastInDim S1600000 ![] bcast_S_S1600000 main_c_7
  let main_v22 : IVec S1600000 1 := cmpi .sge main_arg2 main_v21
  let main_c_8 : IVec S_ 32 := constantI S_ 32 100000#32
  let main_v23 : IVec S1600000 32 := broadcastInDim S1600000 ![] bcast_S_S1600000 main_c_8
  let main_v24 : IVec S1600000 1 := cmpi .slt main_arg2 main_v23
  let main_v25 : IVec S1600000 1 := andi main_v22 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v20 main_v26
  main_v27

def fn {F : FTy → Type} [FloatOps F] (main_arg0 : FVec F S100000x128 .f32) (main_arg1 : IVec S1600000 32) (main_arg2 : IVec S1600000 32) (main_arg3 : FVec F S128 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 4294867296#32
  let main_v14 : IVec S1600000 32 := broadcastInDim S1600000 ![] bcast_S_S1600000 main_c_4
  let main_v15 : IVec S1600000 1 := cmpi .sge main_arg1 main_v14
  let main_c_5 : IVec S_ 32 := constantI S_ 32 100000#32
  fn_part1 (F := F) main_arg1 main_arg2 main_v13 main_v15 main_c_5
-- ==== Kernel.lean ====
abbrev S100000x128 : Shape := ⟨2, ![100000, 128]⟩
abbrev S1600000 : Shape := ⟨1, ![1600000]⟩
abbrev S128 : Shape := ⟨1, ![128]⟩
abbrev S1 : Shape := ⟨1, ![1]⟩
abbrev S10000x128 : Shape := ⟨2, ![10000, 128]⟩
abbrev S10000 : Shape := ⟨1, ![10000]⟩
abbrev S10000x1 : Shape := ⟨2, ![10000, 1]⟩
abbrev S1x128 : Shape := ⟨2, ![1, 128]⟩
abbrev S_ : Shape := ⟨0, ![]⟩
abbrev S1600000x1 : Shape := ⟨2, ![1600000, 1]⟩
abbrev S1x1 : Shape := ⟨2, ![1, 1]⟩
abbrev S1600000x128 : Shape := ⟨2, ![1600000, 128]⟩

abbrev nBuf : Space → Nat
  | .hbm => 62
  | .vmem => 4
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128, .f32⟩
  | .hbm, ⟨4, _⟩ => ⟨S1, .f32⟩
  | .hbm, ⟨5, _⟩ => ⟨S100000x128, .f32⟩
  | .hbm, ⟨6, _⟩ => ⟨S1x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S1600000x128, .f32⟩
  | .hbm, ⟨51, _⟩ => ⟨S1600000x128, .i1⟩
  | .hbm, ⟨52, _⟩ => ⟨S_, .f32⟩
  | .hbm, ⟨53, _⟩ => ⟨S1600000x128, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S1600000, .f32⟩
  | .hbm, ⟨58, _⟩ => ⟨S1600000x1, .f32⟩
  | .hbm, ⟨59, _⟩ => ⟨S1x1, .f32⟩
  | .hbm, ⟨60, _⟩ => ⟨S1600000x1, .f32⟩
  | .hbm, ⟨61, _⟩ => ⟨S1600000x1, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_cst : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1x128_S1600000x128_0_1 : S1x128.BroadcastsInDim S1600000x128 (![0, 1] : Fin 2 → Fin S1600000x128.rank)
  reducesTo_S1600000x128_S1600000_d1 : S1600000x128.ReducesTo [1] S1600000
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128 : Shape := ⟨1, ![128]⟩
abbrev S1 : Shape := ⟨1, ![1]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1600000x1 : Shape := ⟨2, ![1600000, 1]⟩
abbrev S1600000x128 : Shape := ⟨2, ![1600000, 128]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128, .f32⟩
  | .hbm, ⟨4, _⟩ => ⟨S1, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S100000x1, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S100000x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S1600000, .f32⟩
  | .hbm, ⟨39, _⟩ => ⟨S1600000x1, .f32⟩
  | .hbm, ⟨40, _⟩ => ⟨S1x1, .f32⟩
  | .hbm, ⟨41, _⟩ => ⟨S1600000x1, .f32⟩
  | .hbm, ⟨42, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  gather_S100000x128_S1600000x1_S1600000x128_1_0_n_n_0_1_1128_wf : GatherDims.WF S100000x128 S1600000x1 S1600000x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.IndexRange.lean ====
/-
  An index range read back out of the printed precondition, and what it gives for the wrapped index.

  The precondition carries, for each of the two index vectors, the conjunct "every element x has
  -100000 ≤ x and x < 100000" (signed). A program that turns an index x into
  w(x) = x + 100000 when x < 0, and x otherwise (32-bit wrapping add, signed compare), then has
  0 ≤ w(x) ≤ 99999: for a negative x in range the sum lies in [0, 100000) and does not wrap past it,
  and a non-negative x in range is already there.
-/
import proofs.«430502_j6597069767219_2_alg».proof.Pre_finite_inputs
import Idealize.ShloMosaic.Lib.ReduceAll
import Idealize.ShloMosaic.Lib.StableHlo.Predicate

namespace Cert.IndexRange

open Idealize.ShloMosaic

/-- The word 4294867296 read signed is -100000. -/
private theorem toInt_lo : (4294867296#32 : BitVec 32).toInt = -100000 := by decide

/-- The word 100000 read signed is 100000. -/
private theorem toInt_hi : (100000#32 : BitVec 32).toInt = 100000 := by decide

private theorem toInt_zero32 : (0#32 : BitVec 32).toInt = 0 := by decide

/-- A select on a set condition is its first branch; on a condition that is not set, its second. -/
private theorem select_pos {α : Type} (c : BitVec 1) (a b : α) (h : c = 1#1) : Scalar.select c a b = a := by
  unfold Scalar.select; exact if_pos h

private theorem select_neg {α : Type} (c : BitVec 1) (a b : α) (h : ¬ c = 1#1) : Scalar.select c a b = b := by
  unfold Scalar.select; exact if_neg h

/-- "x < 0" (signed) is set exactly when the top bit of x is: 2³¹ ≤ x as a natural number. -/
private theorem slt_zero_iff (x : BitVec 32) : IntOp.cmpi .slt x 0#32 = 1#1 ↔ 2 ^ 31 ≤ x.toNat := by
  unfold IntOp.cmpi
  rw [StableHlo.Predicate.ofBool_eq_one_iff]
  simp only [BitVec.slt, decide_eq_true_eq, toInt_zero32]
  rw [BitVec.toInt_eq_toNat_cond]
  have hx := x.isLt
  split <;> omega

/-- A word x with -100000 ≤ x < 100000 (signed) wraps to a word in [0, 99999]. -/
theorem wrap_inRange (x : BitVec 32)
    (h1 : IntOp.cmpi .sge x 4294867296#32 = 1#1) (h2 : IntOp.cmpi .slt x 100000#32 = 1#1) :
    IntOp.cmpi .sge (Scalar.select (IntOp.cmpi .slt x 0#32) (IntOp.addi x 100000#32) x) 0#32 = 1#1
    ∧ IntOp.cmpi .sle (Scalar.select (IntOp.cmpi .slt x 0#32) (IntOp.addi x 100000#32) x) 99999#32 = 1#1 := by
  -- the two hypotheses as inequalities between signed values
  have hlo : (-100000 : Int) ≤ x.toInt := by
    have := (StableHlo.Predicate.ofBool_eq_one_iff _).1 h1
    simp only [BitVec.sle, decide_eq_true_eq, toInt_lo] at this
    exact this
  have hhi : x.toInt < 100000 := by
    have := (StableHlo.Predicate.ofBool_eq_one_iff _).1 h2
    simp only [BitVec.slt, decide_eq_true_eq, toInt_hi] at this
    exact this
  have hx := x.isLt
  rw [BitVec.toInt_eq_toNat_cond] at hlo hhi
  have z0 : (0#32 : BitVec 32).toNat = 0 := rfl
  have z9 : (99999#32 : BitVec 32).toNat = 99999 := rfl
  by_cases hn : 2 ^ 31 ≤ x.toNat
  · -- x is negative: the wrapped index is x + 100000, a natural number below 100000
    rw [select_pos _ _ _ ((slt_zero_iff x).2 hn)]
    rw [if_neg (by omega)] at hlo
    have hy : (IntOp.addi x 100000#32).toNat = x.toNat + 100000 - 2 ^ 32 := by
      unfold IntOp.addi
      rw [BitVec.toNat_add, BitVec.toNat_ofNat]
      omega
    have hy31 : (IntOp.addi x 100000#32).toNat < 2 ^ 31 := by omega
    exact ⟨(StableHlo.Predicate.sge_iff_toNat hy31 (by decide)).2 (by omega),
      (StableHlo.Predicate.sle_iff_toNat hy31 (by decide)).2 (by omega)⟩
  · -- x is not negative: the wrapped index is x itself, below 100000
    rw [select_neg _ _ _ (fun hc => hn ((slt_zero_iff x).1 hc))]
    rw [if_pos (by omega)] at hhi
    have hx31 : x.toNat < 2 ^ 31 := by omega
    exact ⟨(StableHlo.Predicate.sge_iff_toNat hx31 (by decide)).2 (by omega),
      (StableHlo.Predicate.sle_iff_toNat hx31 (by decide)).2 (by omega)⟩

/-- The scalar shape has one index. -/
private theorem subsingleton_scalarIdx : Subsingleton Cert.Pre_finite_inputs.S_.Idx :=
  ⟨fun a b => funext fun d => d.elim0⟩

/-- The src conjunct: every element of the first index vector has -100000 ≤ x and x < 100000 (signed). -/
theorem src_range {F : FTy → Type} [FloatOps F] [Cert.Pre_finite_inputs.Facts]
    (a0 : FVec F Cert.Pre_finite_inputs.S100000x128 .f32) (a1 a2 : IVec Cert.Pre_finite_inputs.S1600000 32)
    (a3 : FVec F Cert.Pre_finite_inputs.S128 .f32) (a4 : FVec F Cert.Pre_finite_inputs.S1 .f32)
    (h : Cert.Pre_finite_inputs.fn (F := F) a0 a1 a2 a3 a4 = fun _ => 1#1) (k : Cert.Pre_finite_inputs.S1600000.Idx) :
    IntOp.cmpi .sge (a1 k) 4294867296#32 = 1#1 ∧ IntOp.cmpi .slt (a1 k) 100000#32 = 1#1 := by
  -- the result at the scalar shape's one index, with the chain of operations laid open
  haveI := subsingleton_scalarIdx
  have h0 := congrFun h (fun d => d.elim0)
  dsimp only [Cert.Pre_finite_inputs.fn, Cert.Pre_finite_inputs.fn_part1] at h0
  -- the and-tree is ((finite ∧ src) ∧ dst): take src
  obtain ⟨h20, _⟩ := IntOp.andi_eq_one.1 h0
  obtain ⟨_, h19⟩ := IntOp.andi_eq_one.1 h20
  -- an and-reduction that is 1 met a 1 at every element
  have hk := Host.reduce_andi_all _ _ _ _ _ h19 k
  -- that element is the and of the two compares, each against a broadcast constant
  exact IntOp.andi_eq_one.1 hk

/-- The dst conjunct: the same of the second index vector. -/
theorem dst_range {F : FTy → Type} [FloatOps F] [Cert.Pre_finite_inputs.Facts]
    (a0 : FVec F Cert.Pre_finite_inputs.S100000x128 .f32) (a1 a2 : IVec Cert.Pre_finite_inputs.S1600000 32)
    (a3 : FVec F Cert.Pre_finite_inputs.S128 .f32) (a4 : FVec F Cert.Pre_finite_inputs.S1 .f32)
    (h : Cert.Pre_finite_inputs.fn (F := F) a0 a1 a2 a3 a4 = fun _ => 1#1) (k : Cert.Pre_finite_inputs.S1600000.Idx) :
    IntOp.cmpi .sge (a2 k) 4294867296#32 = 1#1 ∧ IntOp.cmpi .slt (a2 k) 100000#32 = 1#1 := by
  haveI := subsingleton_scalarIdx
  have h0 := congrFun h (fun d => d.elim0)
  dsimp only [Cert.Pre_finite_inputs.fn, Cert.Pre_finite_inputs.fn_part1] at h0
  -- the and-tree is ((finite ∧ src) ∧ dst): take dst
  obtain ⟨_, h26⟩ := IntOp.andi_eq_one.1 h0
  have hk := Host.reduce_andi_all _ _ _ _ _ h26 k
  exact IntOp.andi_eq_one.1 hk

end Cert.IndexRange
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.EdgeDot.lean ====
/-
  The per-edge product of gathered table rows, and what both programs do with it.

  Both programs end the same way: from an array `P : [E, H]` (E = 1600000 edges, H = 128 features) they form, per
  edge `e`, the sum over the features of `P[e, ·]` (from the initial value 0) and multiply it by the one entry of
  `scale`. That common ending is `edgeTail`; it is never opened. They differ in how `P` is built from a table
  `T : [N, H]` (N = 100000 rows), two index vectors and the per-feature factor `d`:

  * one program reads `T` through a guarded gather (`take`): the start index `x[e]` is first moved up by `N` when it
    is negative (`wrapWord`), the row is gathered at that start index, and the row is replaced by a fill constant when
    the moved index is outside `[0, N − 1]`; then `P[e, c] = (take T src)[e, c] · d[c] · (take T dst)[e, c]`;
  * the other scales the table first and gathers without a guard:
    `P[e, c] = (T · d)[row(src e), c] · T[row(dst e), c]`, the same moved start indices.

  A gather of whole rows reads row `row(e)` whatever the table is, so it commutes with the per-feature factor; and
  where every moved index lies in `[0, N − 1]` the guard never fires. Under that range condition the two arrays `P`
  are equal, at every float instance: nothing here is arithmetic beyond reading products entry by entry.
-/
import Idealize.ShloMosaic.PureOps
import Idealize.ShloMosaic.PureOps.Reduce
import Idealize.ShloMosaic.Lib.ValueIdx
import Idealize.ShloMosaic.Lib.Pipeline.Value
import Idealize.ShloMosaic.Lib.ReduceAll
import proofs.«430502_j6597069767219_2_alg».proof.Proof.LibGatherRow

noncomputable section

namespace Cert.EdgeDot

open Idealize.ShloMosaic Idealize.ShloMosaic.ValueIdx

/-! ## Shapes and the relations between them -/

abbrev STbl : Shape := ⟨2, ![100000, 128]⟩
abbrev SE : Shape := ⟨1, ![1600000]⟩
abbrev SEx1 : Shape := ⟨2, ![1600000, 1]⟩
abbrev SExH : Shape := ⟨2, ![1600000, 128]⟩
abbrev SH : Shape := ⟨1, ![128]⟩
abbrev S1xH : Shape := ⟨2, ![1, 128]⟩
abbrev S1 : Shape := ⟨1, ![1]⟩
abbrev S1x1 : Shape := ⟨2, ![1, 1]⟩
abbrev S0 : Shape := ⟨0, ![]⟩

theorem bc_S0_SE : S0.BroadcastsInDim SE (![] : Fin 0 → Fin SE.rank) := by decide
theorem bc_SE_SEx1 : SE.BroadcastsInDim SEx1 (![0] : Fin 1 → Fin SEx1.rank) := by decide
theorem bc_S0_SEx1 : S0.BroadcastsInDim SEx1 (![] : Fin 0 → Fin SEx1.rank) := by decide
theorem bc_S1_S1x1 : S1.BroadcastsInDim S1x1 (![1] : Fin 1 → Fin S1x1.rank) := by decide
theorem bc_S1x1_SEx1 : S1x1.BroadcastsInDim SEx1 (![0, 1] : Fin 2 → Fin SEx1.rank) := by decide
theorem red_SEx1_SE : SEx1.ReducesTo [1] SE := by decide
theorem pos_S0 : 0 < S0.numel := by decide
theorem bc_SE_SExH : SE.BroadcastsInDim SExH (![0] : Fin 1 → Fin SExH.rank) := by decide
theorem bc_S0_SExH : S0.BroadcastsInDim SExH (![] : Fin 0 → Fin SExH.rank) := by decide
theorem bc_S1xH_SExH : S1xH.BroadcastsInDim SExH (![0, 1] : Fin 2 → Fin SExH.rank) := by decide
theorem red_SExH_SE : SExH.ReducesTo [1] SE := by decide
theorem sc_SH_S1xH : SH.ShapeCasts S1xH := by decide
theorem bc_SH_S1xH : SH.BroadcastsInDim S1xH (![1] : Fin 1 → Fin S1xH.rank) := by decide
theorem bc_S1xH_STbl : S1xH.BroadcastsInDim STbl (![0, 1] : Fin 2 → Fin STbl.rank) := by decide
theorem gwf : GatherDims.WF STbl SEx1 SExH [1] [0] [] [0] [] 1 ![1, 128] := by decide

/-- The gather of whole table rows at a column of start indices. -/
abbrev gdims : GatherDims STbl SEx1 SExH := GatherRow.dims 100000 128 1600000 gwf

variable {F : FTy → Type} [FloatOps F] {α : Type}

/-! ## Reading the broadcasts at an index -/

/-- A rank-2 index's row and column as numbers of the literal extents. -/
abbrev rowOf {n m : Nat} (y : (⟨2, ![n, m]⟩ : Shape).Idx) : Fin n := ⟨(y 0).val, (y 0).isLt⟩
abbrev colOf {n m : Nat} (y : (⟨2, ![n, m]⟩ : Shape).Idx) : Fin m := ⟨(y 1).val, (y 1).isLt⟩

/-- A broadcast of a rank-0 array is its one entry everywhere. -/
theorem bcast0_apply {t : Shape} (h : S0.BroadcastsInDim t (![] : Fin 0 → Fin t.rank)) (v : S0.Idx → α) (j : t.Idx) :
    broadcastInDim t ![] h v j = v ix0 :=
  broadcastInDim_apply _ h v j ix0 (fun a => a.elim0)

/-- A vector over the edges laid out as a column: entry `(e, 0)` is entry `e`. -/
theorem col_apply (v : SE.Idx → α) (y : SEx1.Idx) :
    broadcastInDim SEx1 ![0] bc_SE_SEx1 v y = v (ix1 (rowOf y)) :=
  broadcastInDim_apply _ bc_SE_SEx1 v y (ix1 (rowOf y)) (fun a => match a with
    | ⟨0, _⟩ => by show (y 0).val = if (1600000 : Nat) = 1 then 0 else (y 0).val; rw [if_neg (by decide)])

/-- A vector over the edges repeated along the features: entry `(e, c)` is entry `e`. -/
theorem rows_apply (v : SE.Idx → α) (y : SExH.Idx) :
    broadcastInDim SExH ![0] bc_SE_SExH v y = v (ix1 (rowOf y)) :=
  broadcastInDim_apply _ bc_SE_SExH v y (ix1 (rowOf y)) (fun a => match a with
    | ⟨0, _⟩ => by show (y 0).val = if (1600000 : Nat) = 1 then 0 else (y 0).val; rw [if_neg (by decide)])

/-- The one-entry array `[1]` as `[1, 1]`, repeated down the edges: every entry is that one entry. -/
theorem one_apply (v : S1.Idx → α) (y : SEx1.Idx) :
    broadcastInDim SEx1 ![0, 1] bc_S1x1_SEx1 (broadcastInDim S1x1 ![1] bc_S1_S1x1 v) y = v (ix1 (0 : Fin 1)) := by
  rw [broadcastInDim_apply _ bc_S1x1_SEx1 _ y (ix2 (0 : Fin 1) (0 : Fin 1)) (fun a => match a with
    | ⟨0, _⟩ => by show 0 = if (1 : Nat) = 1 then 0 else (y 0).val; rw [if_pos rfl]
    | ⟨1, _⟩ => by show 0 = if (1 : Nat) = 1 then 0 else (y 1).val; rw [if_pos rfl])]
  exact broadcastInDim_apply _ bc_S1_S1x1 v _ (ix1 (0 : Fin 1)) (fun a => match a with
    | ⟨0, _⟩ => by show 0 = if (1 : Nat) = 1 then 0 else _; rw [if_pos rfl])

/-- The per-feature factor as a row `[1, H]` (by a reshape) repeated down the edges: entry `(e, c)` is `d[c]`. -/
theorem featE_apply (d : SH.Idx → α) (y : SExH.Idx) :
    broadcastInDim SExH ![0, 1] bc_S1xH_SExH (shapeCast S1xH d sc_SH_S1xH) y = d (ix1 (colOf y)) := by
  rw [broadcastInDim_apply _ bc_S1xH_SExH _ y (ix2 (0 : Fin 1) (colOf y)) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])]
  rw [shapeCast_addUnit_apply ![128] d sc_SH_S1xH]
  exact congrArg d (funext fun a => match a with | ⟨0, _⟩ => rfl)

/-- The per-feature factor as a row `[1, H]` (by a broadcast) repeated down the table: entry `(r, c)` is `d[c]`. -/
theorem featT_apply (d : SH.Idx → α) (y : STbl.Idx) :
    broadcastInDim STbl ![0, 1] bc_S1xH_STbl (broadcastInDim S1xH ![1] bc_SH_S1xH d) y = d (ix1 (colOf y)) := by
  rw [broadcastInDim_apply _ bc_S1xH_STbl _ y (ix2 (0 : Fin 1) (colOf y)) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])]
  exact broadcastInDim_apply _ bc_SH_S1xH d _ (ix1 (colOf y)) (fun a => match a with
    | ⟨0, _⟩ => by show (y 1).val = if (128 : Nat) = 1 then 0 else (y 1).val; rw [if_neg (by decide)])

/-! ## The start indices -/

/-- A start index as both programs use it: a negative word is moved up by the table's height `N`. -/
abbrev wrapWord (x : BitVec 32) : BitVec 32 :=
  Scalar.select (IntOp.cmpi .slt x 0#32) (IntOp.addi x 100000#32) x

/-- The moved start indices, as the column `[E, 1]` the gather takes. -/
def wrapIdx (x : IVec SE 32) : IVec SEx1 32 :=
  broadcastInDim SEx1 ![0] bc_SE_SEx1
    (select (cmpi .slt x (broadcastInDim SE ![] bc_S0_SE (constantI S0 32 0#32)))
      (addi x (broadcastInDim SE ![] bc_S0_SE (constantI S0 32 100000#32))) x)

/-- Entry `(e, 0)` of that column is the moved word of `x[e]`. -/
theorem wrapIdx_apply (x : IVec SE 32) (y : SEx1.Idx) : wrapIdx x y = wrapWord (x (ix1 (rowOf y))) := by
  unfold wrapIdx
  rw [col_apply]
  show Scalar.select (IntOp.cmpi .slt (x (ix1 (rowOf y))) (broadcastInDim SE ![] bc_S0_SE (constantI S0 32 0#32) (ix1 (rowOf y))))
      (IntOp.addi (x (ix1 (rowOf y))) (broadcastInDim SE ![] bc_S0_SE (constantI S0 32 100000#32) (ix1 (rowOf y)))) (x (ix1 (rowOf y))) = _
  rw [bcast0_apply, bcast0_apply]
  rfl

/-! ## The guarded gather -/

/-- Per edge, whether the moved start index lies in `[0, N − 1]` (the conjunction over the one index component). -/
def inRows (x : IVec SE 32) : IVec SE 1 :=
  Host.reduce IntOp.andi
    (andi (cmpi .sge (wrapIdx x) (broadcastInDim SEx1 ![] bc_S0_SEx1 (constantI S0 32 0#32)))
      (cmpi .sle (wrapIdx x)
        (broadcastInDim SEx1 ![0, 1] bc_S1x1_SEx1 (broadcastInDim S1x1 ![1] bc_S1_S1x1 (constantI S1 32 99999#32)))))
    (constantI S0 1 1#1) red_SEx1_SE pos_S0

/-- The guarded gather: the table's row at the moved start index, or the fill constant where that index is outside
    `[0, N − 1]`. -/
def take (T : FVec F STbl .f32) (x : IVec SE 32) : FVec F SExH .f32 :=
  select (broadcastInDim SExH ![0] bc_SE_SExH (inRows x))
    (Host.gather gdims T (wrapIdx x))
    (broadcastInDim SExH ![] bc_S0_SExH (constant S0 .f32 0x7FC00000#32))

/-- A left fold by `and` from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from IntOp.andi_eq_one.2 ⟨rfl, rfl⟩]
    exact foldl_andi_one f hf l

/-- Where every moved start index lies in `[0, N − 1]` the guard is set on every edge. -/
theorem inRows_eq_one (x : IVec SE 32)
    (hx : ∀ e : Fin 1600000, IntOp.cmpi .sge (wrapWord (x (ix1 e))) 0#32 = 1#1
      ∧ IntOp.cmpi .sle (wrapWord (x (ix1 e))) 99999#32 = 1#1) (j : SE.Idx) : inRows x j = 1#1 := by
  unfold inRows
  rw [Host.reduce_eq_foldl]
  refine foldl_andi_one _ (fun i => ?_) _
  show IntOp.andi (IntOp.cmpi .sge (wrapIdx x i) (broadcastInDim SEx1 ![] bc_S0_SEx1 (constantI S0 32 0#32) i))
      (IntOp.cmpi .sle (wrapIdx x i) (broadcastInDim SEx1 ![0, 1] bc_S1x1_SEx1
        (broadcastInDim S1x1 ![1] bc_S1_S1x1 (constantI S1 32 99999#32)) i)) = 1#1
  rw [wrapIdx_apply, bcast0_apply, one_apply]
  exact IntOp.andi_eq_one.2 (hx (rowOf i))

/-- Where every moved start index lies in `[0, N − 1]` the guarded gather is the plain gather. -/
theorem take_eq (T : FVec F STbl .f32) (x : IVec SE 32)
    (hx : ∀ e : Fin 1600000, IntOp.cmpi .sge (wrapWord (x (ix1 e))) 0#32 = 1#1
      ∧ IntOp.cmpi .sle (wrapWord (x (ix1 e))) 99999#32 = 1#1) :
    take T x = Host.gather gdims T (wrapIdx x) := by
  funext y
  unfold take
  show Scalar.select (broadcastInDim SExH ![0] bc_SE_SExH (inRows x) y) (Host.gather gdims T (wrapIdx x) y) _ = _
  rw [rows_apply, inRows_eq_one x hx]
  rfl

/-! ## The two products, and their common ending -/

/-- The per-edge product of the program that gathers first and scales the gathered rows. -/
def prodGuarded (T : FVec F STbl .f32) (src dst : IVec SE 32) (d : FVec F SH .f32) : FVec F SExH .f32 :=
  mulf (mulf (take T src) (broadcastInDim SExH ![0, 1] bc_S1xH_SExH (shapeCast S1xH d sc_SH_S1xH))) (take T dst)

/-- The per-edge product of the program that scales the table first and gathers the scaled rows. -/
def prodScaled (T : FVec F STbl .f32) (src dst : IVec SE 32) (d : FVec F SH .f32) : FVec F SExH .f32 :=
  mulf (Host.gather gdims (mulf T (broadcastInDim STbl ![0, 1] bc_S1xH_STbl (broadcastInDim S1xH ![1] bc_SH_S1xH d)))
      (wrapIdx src))
    (Host.gather gdims T (wrapIdx dst))

/-- What both programs do with the product: per edge the sum over the features from 0, times the entry of `scale`. -/
def edgeTail (P : FVec F SExH .f32) (scale : FVec F S1 .f32) : FVec F SEx1 .f32 :=
  mulf (broadcastInDim SEx1 ![0] bc_SE_SEx1 (Host.reduceAdd P (constant S0 .f32 0x00000000#32) red_SExH_SE pos_S0))
    (broadcastInDim SEx1 ![0, 1] bc_S1x1_SEx1 (broadcastInDim S1x1 ![1] bc_S1_S1x1 scale))

/-- THE TWO PRODUCTS AGREE where both index vectors' moved start indices lie in `[0, N − 1]`: entry `(e, c)` of
    either is `T[row(src e), c] · d[c] · T[row(dst e), c]`, the row gather reading row `row(e)` of whatever table it is
    given. -/
theorem prodGuarded_eq_prodScaled (T : FVec F STbl .f32) (src dst : IVec SE 32) (d : FVec F SH .f32)
    (hsrc : ∀ e : Fin 1600000, IntOp.cmpi .sge (wrapWord (src (ix1 e))) 0#32 = 1#1
      ∧ IntOp.cmpi .sle (wrapWord (src (ix1 e))) 99999#32 = 1#1)
    (hdst : ∀ e : Fin 1600000, IntOp.cmpi .sge (wrapWord (dst (ix1 e))) 0#32 = 1#1
      ∧ IntOp.cmpi .sle (wrapWord (dst (ix1 e))) 99999#32 = 1#1) :
    prodGuarded T src dst d = prodScaled T src dst d := by
  unfold prodGuarded prodScaled
  rw [take_eq T src hsrc, take_eq T dst hdst]
  funext y
  show FloatOps.mulf (FloatOps.mulf (Host.gather gdims T (wrapIdx src) y)
        (broadcastInDim SExH ![0, 1] bc_S1xH_SExH (shapeCast S1xH d sc_SH_S1xH) y)) (Host.gather gdims T (wrapIdx dst) y)
    = FloatOps.mulf (Host.gather gdims (mulf T (broadcastInDim STbl ![0, 1] bc_S1xH_STbl
        (broadcastInDim S1xH ![1] bc_SH_S1xH d))) (wrapIdx src) y) (Host.gather gdims T (wrapIdx dst) y)
  rw [featE_apply, GatherRow.gather_row_apply (by decide) gwf T (wrapIdx src) y,
    GatherRow.gather_row_apply (by decide) gwf (mulf T _) (wrapIdx src) y]
  show _ = FloatOps.mulf (FloatOps.mulf (T _) (broadcastInDim STbl ![0, 1] bc_S1xH_STbl
    (broadcastInDim S1xH ![1] bc_SH_S1xH d) _)) _
  rw [featT_apply]

end Cert.EdgeDot

end
-- ==== Proof.NormTable.lean ====
/-
  A table with every row divided by its Euclidean norm, the norm kept away from zero.

  For a row `v` of 128 extended reals, `normEntry v c = v c / max (√(∑ₖ v k · v k)) ε`, with `ε` the value of the f32
  word `0x2B8CBCCC` (the same word in both programs, so it is never evaluated), `/` and `√` the ideal instance's total
  operations. `normTable x` applies this to each row of an `[n, 128]` array. A row's entry depends on that row alone, so
  the normalized table of a block of whole rows is the block of the normalized table.

  Also here: the three readings a kernel body needs to see its own arithmetic in that form — a column `[n, 1]` repeated
  along the 128 lanes, a vector `[n]` laid out as a column, and a lane sum over the 128 lanes of one row.
-/
import Idealize.ShloMosaic.PureOps.Ideal
import Idealize.ShloMosaic.PureOps.Ideal.Laws
import Idealize.ShloMosaic.Lib.ValueIdx
import Idealize.ShloMosaic.Lib.Pipeline.Value

noncomputable section

namespace Cert.NormTable

open Idealize.ShloMosaic Idealize.ShloMosaic.ValueIdx

/-- Entry `c` of the row `v` divided by the larger of its Euclidean norm and `ε`. -/
def normEntry (v : Fin 128 → EReal) (c : Fin 128) : EReal :=
  Ideal.div (v c) (max (Ideal.sqrt (∑ k : Fin 128, v k * v k)) (Ideal.ofBits .f32 0x2B8CBCCC#32))

/-- Row `r` of an `[n, 128]` array. -/
abbrev rowAt {n : Nat} (x : FVec Ideal ⟨2, ![n, 128]⟩ .f32) (r : Fin n) : Fin 128 → EReal := fun k => x (ix2 r k)

/-- Every row normalized. -/
def normTable {n : Nat} (x : FVec Ideal ⟨2, ![n, 128]⟩ .f32) : FVec Ideal ⟨2, ![n, 128]⟩ .f32 :=
  fun i => normEntry (rowAt x ⟨(i 0).val, (i 0).isLt⟩) ⟨(i 1).val, (i 1).isLt⟩

theorem normTable_apply {n : Nat} (x : FVec Ideal ⟨2, ![n, 128]⟩ .f32) (p : Fin n) (q : Fin 128) :
    normTable x (ix2 p q) = normEntry (rowAt x p) q := rfl

/-! ## Layout and lane-sum readings -/

variable {α : Type}

/-- A column `[n, 1]` repeated along 128 lanes reads, at `(p, q)`, the column at `(p, 0)`. -/
theorem broadcastTo_col_apply {n : Nat} (v : (⟨2, ![n, 1]⟩ : Shape).Idx → α)
    (h : (⟨2, ![n, 1]⟩ : Shape).Broadcasts ⟨2, ![n, 128]⟩) (p : Fin n) (q : Fin 128) :
    broadcastTo ⟨2, ![n, 128]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- A vector `[n]` laid out as a column `[n, 1]` reads, at `(p, 0)`, the vector at `p`. -/
theorem shapeCast_col_apply {n : Nat} (v : (⟨1, ![n]⟩ : Shape).Idx → α)
    (h : (⟨1, ![n]⟩ : Shape).ShapeCasts ⟨2, ![n, 1]⟩) (p : Fin n) :
    shapeCast ⟨2, ![n, 1]⟩ v h (ix2 p (0 : Fin 1)) = v (ix1 p) :=
  shapeCast_apply v h _ _ (by
    rw [Shape.rowMajor_val_two, Shape.rowMajor_val_one]
    show p.val = p.val * 1 + 0
    omega)

/-- The lane sum of an `[n, 128]` array over its 128 lanes reads, at `p`, the sum of row `p`. -/
theorem laneSum_apply {n : Nat} (v : FVec Ideal ⟨2, ![n, 128]⟩ .f32)
    (h : (⟨2, ![n, 128]⟩ : Shape).Reduces [1] ⟨1, ![n]⟩) (hφ : FKind.Formats .f32)
    (hacc : (0x00000000#32 : BitVec 32) = FKind.add.neutral .f32 hφ) (p : Fin n) :
    multiReduction .add [1] ⟨1, ![n]⟩ v 0x00000000#32 h hφ hacc (ix1 p) = ∑ k : Fin 128, v (ix2 p k) :=
  (Ideal.multiReduction_add_single v 0x00000000#32 h hφ hacc (ix1 p)).trans
    (Finset.sum_congr rfl fun k _ =>
      congrArg v (funext fun a => Fin.ext (by match a with | ⟨0, _⟩ => rfl | ⟨1, _⟩ => rfl)))

end Cert.NormTable

end
-- ==== Proof.KernelBlock.lean ====
/-
  The kernel body's arithmetic on one block, at the ideal instance.

  The body loads a block of 10000 whole rows, squares it, sums each row's 128 lanes, lays the sums out as a column,
  takes the square root, bounds it below by `ε`, repeats the column along the lanes and divides the block by it. Entry
  `(p, q)` of the result is therefore the block's entry divided by `max (√(∑ₖ row p at k, squared)) ε`: the block's
  normalized table (Proof/NormTable.lean).
-/
import proofs.«430502_j6597069767219_2_alg».proof.Proof.Gen.KernelIdeal.Skeleton
import proofs.«430502_j6597069767219_2_alg».proof.Proof.NormTable

noncomputable section

namespace Cert.KernelIdeal.Block

open Cert.KernelIdeal Cert.KernelIdeal.Gen Idealize.ShloMosaic Idealize.ShloMosaic.ValueIdx Cert.NormTable

/-- The stored value is the loaded block's normalized table. -/
theorem pay_eq (x0 : Vec Ideal S10000x128 .f32) : k0_pay1 (F := Ideal) x0 = normTable (n := 10000) x0 := by
  funext j
  obtain ⟨p, q, rfl⟩ : ∃ (p : Fin 10000) (q : Fin 128), j = ix2 p q := ⟨j 0, j 1, eq_ix2 j⟩
  rw [normTable_apply]
  unfold k0_pay1 normEntry
  show Ideal.div (x0 (ix2 p q)) (broadcastTo S10000x128 _ broadcasts_S10000x1_S10000x128 (ix2 p q))
    = Ideal.div (x0 (ix2 p q)) _
  refine congrArg (Ideal.div (x0 (ix2 p q))) ?_
  refine (broadcastTo_col_apply _ broadcasts_S10000x1_S10000x128 p q).trans ?_
  show max (Ideal.sqrt (shapeCast S10000x1 _ shapeCasts_S10000_S10000x1 (ix2 p (0 : Fin 1))))
      (Ideal.ofBits .f32 0x2B8CBCCC#32) = _
  refine congrArg (fun z => max (Ideal.sqrt z) (Ideal.ofBits .f32 0x2B8CBCCC#32)) ?_
  refine (shapeCast_col_apply _ shapeCasts_S10000_S10000x1 p).trans ?_
  exact laneSum_apply (mulf x0 x0) reduces_S10000x128_S10000 (.inl rfl) rfl p

end Cert.KernelIdeal.Block

end
-- ==== Proof.KernelArray.lean ====
/-
  The region's output array after the last write-back: the normalized table of the launched table.

  The grid has 10 points; at point `t` the input and the output window both sit on block row `t` (block column 0): rows
  `10000·t … 10000·t + 9999`, all 128 columns. Row `p` of the input block is row `10000·t + p` of the table, whole, so the
  body's result on the block (the block's normalized table, Proof/KernelBlock.lean) is block `t` of the table's normalized
  table: normalizing a row needs that row only. The ten blocks cover every row, so the array ends at the normalized table.
-/
import proofs.«430502_j6597069767219_2_alg».proof.Proof.Gen.KernelIdeal.Frame
import proofs.«430502_j6597069767219_2_alg».proof.Proof.KernelBlock
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
  Idealize.ShloMosaic.ValueIdx Cert.NormTable
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The index maps over the grid: the input window sits on the output window's block row, both on block column 0, and
    the block row is one of the ten. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 9 :=
  (by decide +kernel : ∀ t : Fin grid0.N, _)

/-- Each of the ten block rows is some point's. -/
theorem idx_onto : ∀ q0 : Fin 10, ∃ t : Fin cfg0.N, win0_1.index t (0 : Fin 2) = q0.val :=
  (by decide +kernel : ∀ q0 : Fin 10, ∃ t : Fin grid0.N, win0_1.index t (0 : Fin 2) = q0.val)

/-- The table as the region finds it. -/
abbrev table (c : Dev nD) : FVec Ideal S100000x128 .f32 := V m c main_arg0

/-- The table row that row `p` of point `t`'s blocks is. -/
def tableRow (t : Fin cfg0.N) (p : Fin 10000) : Fin 100000 :=
  ⟨win0_1.index t (0 : Fin 2) * 10000 + p.val, by have := (idx_facts t).2.2.2; have := p.isLt; omega⟩

/-- Entry `(p, k)` of the input block at point `t` sits at `(tableRow t p, k)` of the table. -/
theorem emb_in (t : Fin cfg0.N) (p : Fin 10000) (k : Fin 128) :
    ((cfg0.win 0).blk t).view.emb (ix2 p k) = ix2 (tableRow t p) k := by
  obtain ⟨e0, e1, e2, e3⟩ := idx_facts t
  funext a; apply Fin.ext
  match a with
  | ⟨0, _⟩ => show win0_0.index t (0 : Fin 2) * 10000 + 1 * p.val = win0_1.index t (0 : Fin 2) * 10000 + p.val; omega
  | ⟨1, _⟩ => show win0_0.index t (1 : Fin 2) * 128 + 1 * k.val = k.val; omega

/-- Entry `(p, k)` of the output block at point `t` sits at `(tableRow t p, k)` of the output array. -/
theorem emb_out (t : Fin cfg0.N) (p : Fin 10000) (k : Fin 128) :
    ((cfg0.win 1).blk t).view.emb (ix2 p k) = ix2 (tableRow t p) k := by
  obtain ⟨e0, e1, e2, e3⟩ := idx_facts t
  funext a; apply Fin.ext
  match a with
  | ⟨0, _⟩ => show win0_1.index t (0 : Fin 2) * 10000 + 1 * p.val = win0_1.index t (0 : Fin 2) * 10000 + p.val; omega
  | ⟨1, _⟩ => show win0_1.index t (1 : Fin 2) * 128 + 1 * k.val = k.val; omega

/-- WHAT POINT `t` WRITES BACK is block `t` of the table's normalized table. -/
theorem flushed_eq (c : Dev nD) (t : Fin cfg0.N) :
    (dats m 0 c).flushed 1 t = ((cfg0.win 1).blk t).view.read (Elt Ideal) (normTable (n := 100000) (table m c)) := by
  show (cfg0.win 1).cut (grid0.coords t) ((dats m 0 c).after 1 t) = _
  rw [after0_1]
  unfold out0_1
  rw [View.canon_unit_zero hz]
  simp only [View.ld_unit_zero (S := S10000x128) hz]
  rw [Block.pay_eq]
  funext j
  obtain ⟨p, q, rfl⟩ : ∃ (p : Fin 10000) (q : Fin 128), j = ix2 p q := ⟨j 0, j 1, eq_ix2 j⟩
  show normTable (n := 10000) (iblk m c 0 t) (ix2 p q)
    = normTable (n := 100000) (table m c) (((cfg0.win 1).blk t).view.emb (ix2 p q))
  rw [emb_out t p q, normTable_apply, normTable_apply]
  refine congrArg (fun v => normEntry v q) (funext fun k => ?_)
  show V m c main_arg0 (((cfg0.win 0).blk t).view.emb (ix2 p k)) = V m c main_arg0 (ix2 (tableRow t p) k)
  rw [emb_in t p k]

/-- An index of the array is in point `t`'s block iff each coordinate is in the block's range on its axis. -/
theorem mem_blk (t : Fin cfg0.N) (i : S100000x128.Idx) :
    i ∈ ((cfg0.win 1).blk t).view.set ↔ ∀ a : Fin 2, win0_1.index t a * S10000x128.size a ≤ (i a).val
      ∧ (i a).val < win0_1.index t a * S10000x128.size a + S10000x128.size a := by
  show i ∈ ((View.whole main_v0).slice (win0_1.rect t)).set ↔ _
  rw [View.set_slice_whole, Rect.mem_set_unit]
  exact Iff.rfl

/-- Every index of the array is in the block of the point on its block row. -/
theorem cover (i : S100000x128.Idx) :
    ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := idx_onto ⟨(i 0).val / 10000, by omega⟩
  have q0 : win0_1.index t (0 : Fin 2) = (i 0).val / 10000 := ht
  have q1 : win0_1.index t (1 : Fin 2) = 0 := (idx_facts t).2.2.1
  refine ⟨t, flush0_1 t, ?_⟩
  rw [mem_blk]
  intro a
  match a with
  | ⟨0, _⟩ =>
    show win0_1.index t (0 : Fin 2) * 10000 ≤ (i 0).val ∧ (i 0).val < win0_1.index t (0 : Fin 2) * 10000 + 10000
    omega
  | ⟨1, _⟩ =>
    show win0_1.index t (1 : Fin 2) * 128 ≤ (i 1).val ∧ (i 1).val < win0_1.index t (1 : Fin 2) * 128 + 128
    omega

/-- THE OUTPUT ARRAY after the run is the launched table's normalized table. -/
theorem final (c : Dev nD) :
    (dats m 0 c).arrAt 1 cfg0.N = normTable (n := 100000) (m ((c.tc : Thread nD τ).loc main_arg0)) :=
  ((dats m 0 c).arrAt_eq_of_cover 1 (normTable (n := 100000) (table m c)) (fun t _ => flushed_eq m c t) cover).trans
    (congrArg (normTable (n := 100000)) (V_main_arg0 m c))

end Cert.KernelIdeal.Array

end
-- ==== Proof.TakeOps.lean ====
/- The program's two guarded gathers, 23 host lines each (Gen/KernelIdeal/Launch.lean `hostOps1_1`, `hostOps1_3`), each line
   restated as the plain operation on its buffers: the same operation, its function taken at the buffers' own types.
   A table of the program's lines; that each list is the generated one is proved where it is used. -/
import proofs.«430502_j6597069767219_2_alg».proof.Proof.Gen.KernelIdeal.Launch

noncomputable section

namespace Cert.KernelIdeal.Tail

open Cert.KernelIdeal Cert.KernelIdeal.Gen Idealize.ShloMosaic Idealize.ShloMosaic.TcCoe Idealize.SL.Sem
  Idealize.ShloMosaic.StableHlo

variable {F : FTy → Type} [FloatOps F]

/-- The guarded gather at the first index vector, line by line on its buffers. -/
abbrev takeSrcOps : List (HloOp τ sig (Elt F)) :=
  [ StableHlo.nullary main_call0_c ((constantI S_ 32 0#32) : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_arg1 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_arg1 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_arg1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_v0 main_call0_v5 main_call0_v13 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_call0_v12 main_call0_v14 ((broadcastInDim S1600000x128 ![0] bcast_S1600000_S1600000x128_0) : (⟨S1600000, .i1⟩ : BufTy).Contents (Elt F) → (⟨S1600000x128, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1600000x128 ![] bcast_S_S1600000x128) : (⟨S_, .f32⟩ : BufTy).Contents (Elt F) → (⟨S1600000x128, .f32⟩ : BufTy).Contents (Elt F)),
    StableHlo.ternary main_call0_v14 main_call0_v13 main_call0_v15 main_v2 (select : (⟨S1600000x128, .i1⟩ : BufTy).Contents (Elt F) → (⟨S1600000x128, .f32⟩ : BufTy).Contents (Elt F) → (⟨S1600000x128, .f32⟩ : BufTy).Contents (Elt F) → (⟨S1600000x128, .f32⟩ : BufTy).Contents (Elt F)) ]

/-- The guarded gather at the second index vector, line by line on its buffers. -/
abbrev takeDstOps : List (HloOp τ sig (Elt F)) :=
  [ StableHlo.nullary main_call1_c ((constantI S_ 32 0#32) : (⟨S_, .i32⟩ : BufTy).Contents (Elt F)),
    StableHlo.unary main_call1_c main_call1_v0 ((broadcastInDim S1600000 ![] bcast_S_S1600000) : (⟨S_, .i32⟩ : BufTy).Contents (Elt F) → (⟨S1600000, .i32⟩ : BufTy).Contents (Elt F)),
    StableHlo.binary main_arg2 main_call1_v0 main_call1_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S1600000 ![] bcast_S_S1600000) : (⟨S_, .i32⟩ : BufTy).Contents (Elt F) → (⟨S1600000, .i32⟩ : BufTy).Contents (Elt F)),
    StableHlo.binary main_arg2 main_call1_v2 main_call1_v3 (addi : (⟨S1600000, .i32⟩ : BufTy).Contents (Elt F) → (⟨S1600000, .i32⟩ : BufTy).Contents (Elt F) → (⟨S1600000, .i32⟩ : BufTy).Contents (Elt F)),
    StableHlo.ternary main_call1_v1 main_call1_v3 main_arg2 main_call1_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call1_v4 main_call1_v5 ((broadcastInDim S1600000x1 ![0] bcast_S1600000_S1600000x1_0) : (⟨S1600000, .i32⟩ : BufTy).Contents (Elt F) → (⟨S1600000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S1600000x1 ![] bcast_S_S1600000x1) : (⟨S_, .i32⟩ : BufTy).Contents (Elt F) → (⟨S1600000x1, .i32⟩ : BufTy).Contents (Elt F)),
    StableHlo.binary main_call1_v5 main_call1_v6 main_call1_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call1_v5 main_call1_v9 main_call1_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call1_v7 main_call1_v10 main_call1_v11 (andi : (⟨S1600000x1, .i1⟩ : BufTy).Contents (Elt F) → (⟨S1600000x1, .i1⟩ : BufTy).Contents (Elt F) → (⟨S1600000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_v0 main_call1_v5 main_call1_v13 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_call1_v12 main_call1_v14 ((broadcastInDim S1600000x128 ![0] bcast_S1600000_S1600000x128_0) : (⟨S1600000, .i1⟩ : BufTy).Contents (Elt F) → (⟨S1600000x128, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S1600000x128 ![] bcast_S_S1600000x128) : (⟨S_, .f32⟩ : BufTy).Contents (Elt F) → (⟨S1600000x128, .f32⟩ : BufTy).Contents (Elt F)),
    StableHlo.ternary main_call1_v14 main_call1_v13 main_call1_v15 main_v5 (select : (⟨S1600000x128, .i1⟩ : BufTy).Contents (Elt F) → (⟨S1600000x128, .f32⟩ : BufTy).Contents (Elt F) → (⟨S1600000x128, .f32⟩ : BufTy).Contents (Elt F) → (⟨S1600000x128, .f32⟩ : BufTy).Contents (Elt F)) ]

end Cert.KernelIdeal.Tail

end
-- ==== Proof.KernelTail.lean ====
/-
  The kernel program's lines after its one region, read as a value.

  After the region has written the normalized table, the program reshapes the per-feature factor to a row, reads the
  table twice through the guarded gather (once per index vector), multiplies the first gathered array by the factor and
  by the second gathered array, sums each edge's features from 0 and multiplies by the entry of `scale`. Over ANY
  contents of the buffers those lines read, the result buffer therefore ends at `edgeTail (prodGuarded T src dst d) scale`
  of those contents (Proof/EdgeDot.lean). Here the contents are the region's: the table is the region's output array
  after the last write-back, and the four other arguments are as launched, no line writing them.

  The two guarded gathers are the same 23 lines over two sets of buffers; each line is first restated as the plain
  operation on its buffers (Proof/TakeOps.lean; the same operation: a buffer's contents at its own type), so that the
  composed value of the lines is a plain term of array operations.
-/
import proofs.«430502_j6597069767219_2_alg».proof.Proof.Gen.KernelIdeal.Frame
import proofs.«430502_j6597069767219_2_alg».proof.Proof.EdgeDot
import proofs.«430502_j6597069767219_2_alg».proof.Proof.TakeOps
import Idealize.ShloMosaic.Lib.StableHlo.Run

noncomputable section

namespace Cert.KernelIdeal.Tail

open Cert.KernelIdeal Cert.KernelIdeal.Gen Idealize.ShloMosaic Idealize.ShloMosaic.TcCoe Idealize.SL.Sem
  Idealize.ShloMosaic.StableHlo Cert.EdgeDot

variable {F : FTy → Type} [FloatOps F]

-- compare an operation's arguments, never its definition (a fold over every index of the array)
attribute [local irreducible] Host.reduce Host.gather

set_option maxRecDepth 16384 in
/-- The program's first guarded gather is that list of plain operations: line by line the same function of the same
    buffers. -/
theorem takeSrcOps_eq : (hostOps1_1 : List (HloOp τ sig (Elt F))) = takeSrcOps := rfl

set_option maxRecDepth 16384 in
/-- And its second guarded gather. -/
theorem takeDstOps_eq : (hostOps1_3 : List (HloOp τ sig (Elt F))) = takeDstOps := rfl

set_option maxRecDepth 16384 in
set_option maxHeartbeats 2000000 in
/-- The lines after the region over any buffer contents `W`: the result is the common ending of the guarded product
    of what `W` holds at the table's buffer and at the four arguments'. -/
theorem lines_result (W : Valuation τ sig (Elt F))
    (T : FVec F STbl .f32) (src dst : IVec SE 32) (d : FVec F SH .f32) (scale : FVec F S1 .f32)
    (hT : W (Proc.devRef .tc main_v0) = T) (hsrc : W (Proc.devRef .tc main_arg1) = src)
    (hdst : W (Proc.devRef .tc main_arg2) = dst) (hd : W (Proc.devRef .tc main_arg3) = d)
    (hscale : W (Proc.devRef .tc main_arg4) = scale) :
    StableHlo.after (List.flatten [hostOps1, hostOps1_1, hostOps1_2, hostOps1_3, hostOps1_4]) W (Proc.devRef .tc main_v11)
      = edgeTail (prodGuarded T src dst d) scale := by
  subst hT hsrc hdst hd hscale
  unfold edgeTail prodGuarded take inRows wrapIdx
  rw [takeSrcOps_eq, takeDstOps_eq]
  simp only [hostOps1, takeSrcOps, hostOps1_2, takeDstOps, hostOps1_4, List.flatten_cons, List.flatten_nil,
    List.append_nil, List.cons_append, List.nil_append]
  after_results_simp <;> rfl

variable (m : (ℓ : Loc nD τ sig) → Buf (Elt F) ℓ)

/-- THE KERNEL PROGRAM'S RESULT, as the frame run posts it: the common ending of the guarded product of the region's
    output array (after every write-back) and the launch contents of the index vectors, the factor and the scale. -/
theorem result_eq (c : Dev nD) :
    Pipeline.afterTail₀ cfgs (dats m) 0 (V0 m) [hostOps1, hostOps1_1, hostOps1_2, hostOps1_3, hostOps1_4] c main_v11
      = edgeTail (prodGuarded ((dats m 0 c).arrAt 1 cfg0.N) (m ((c.tc : Thread nD τ).loc main_arg1))
          (m ((c.tc : Thread nD τ).loc main_arg2)) (m ((c.tc : Thread nD τ).loc main_arg3)))
          (m ((c.tc : Thread nD τ).loc main_arg4)) := by
  unfold Pipeline.afterTail₀
  exact lines_result _ _ _ _ _ _
    (Pipeline.withArrays_arr spec0 launch0.win.arr_inj c _ _ 1)
    ((Pipeline.withArrays_of_ne _ c (V0 m c) _ main_arg1 (by decide)).trans (V_main_arg1 m c))
    ((Pipeline.withArrays_of_ne _ c (V0 m c) _ main_arg2 (by decide)).trans (V_main_arg2 m c))
    ((Pipeline.withArrays_of_ne _ c (V0 m c) _ main_arg3 (by decide)).trans (V_main_arg3 m c))
    ((Pipeline.withArrays_of_ne _ c (V0 m c) _ main_arg4 (by decide)).trans (V_main_arg4 m c))

end Cert.KernelIdeal.Tail

end
-- ==== Proof.RefValue.lean ====
/-
  The reference program's result, read as a value at the ideal instance.

  The reference normalizes the table on the host — the squares summed along each row from 0, the square root, the bound
  `ε` from below, the division — which index by index is the normalized table of Proof/NormTable.lean (a sum from 0 is the
  sum; the host's division and square root are the ideal instance's own). It then scales the table by the per-feature
  factor, gathers rows of the scaled and of the unscaled table at the moved start indices, multiplies, and ends as both
  programs end: `edgeTail (prodScaled T src dst d) scale` of Proof/EdgeDot.lean, `T` its normalized table.
-/
import proofs.«430502_j6597069767219_2_alg».proof.Proof.Gen.ReferenceIdeal.Read
import proofs.«430502_j6597069767219_2_alg».proof.Proof.NormTable
import proofs.«430502_j6597069767219_2_alg».proof.Proof.EdgeDot

noncomputable section

namespace Cert.ReferenceIdeal.RefValue

open Cert.ReferenceIdeal Cert.ReferenceIdeal.Gen Cert.ReferenceIdeal.Read Idealize.ShloMosaic Idealize.ShloMosaic.ValueIdx
  Cert.NormTable Cert.EdgeDot

/-- The reference's table is the launched table's normalized table. -/
theorem table_eq (x0 : FVec Ideal S100000x128 .f32) : val_main_v4 (F := Ideal) x0 = normTable (n := 100000) x0 := by
  funext i
  obtain ⟨p, q, rfl⟩ : ∃ (p : Fin 100000) (q : Fin 128), i = ix2 p q := ⟨i 0, i 1, eq_ix2 i⟩
  have hidx : ∀ k : Fin 128, idx_main_call0_v1 (idx_main_call0_v2 (idx_main_v3 (ix2 p q))) k = ix2 p k := fun k =>
    funext fun a => Fin.ext (by match a with | ⟨0, _⟩ => rfl | ⟨1, _⟩ => rfl)
  rw [normTable_apply, val_main_v4_apply, val_main_v3_apply, val_main_v2_apply, val_main_v0_apply,
    val_main_call0_v2_apply, val_main_call0_v1_apply, val_main_v1_apply, val_main_cst_apply, val_main_call0_cst_apply]
  simp only [val_main_call0_v0_apply, hidx, Ideal.hostDivf_def, Ideal.hostUnary_sqrt_def, Ideal.maximumf_def,
    Ideal.mulf_def, Ideal.ofBits_def, Ideal.ofBits_zero_f32, zero_add]
  rfl

variable {F : FTy → Type} [FloatOps F]

/-- The reference's result is the common ending of the scaled product over its own table. -/
theorem result_eq (x0 : FVec F S100000x128 .f32) (x1 x2 : IVec S1600000 32) (x3 : FVec F S128 .f32) (x4 : FVec F S1 .f32) :
    val_main_v27 (F := F) x0 x1 x2 x3 x4 = edgeTail (prodScaled (val_main_v4 (F := F) x0) x1 x2 x3) x4 := rfl

end Cert.ReferenceIdeal.RefValue

end
-- ==== Proof.lean ====
/-
  Per-edge scaled dot products of row-normalized embeddings: the kernel program against its reference, over the
  extended reals.

  Both programs normalize every row of the table `emb : [100000, 128]` — the row divided by the larger of its Euclidean
  norm and `ε` — and then, for each of 1600000 edges `(src e, dst e)`, sum over the 128 features the product of the
  normalized source row, the per-feature factor `d` and the normalized destination row, times the one entry of `scale`.

  * The kernel program normalizes in a pallas_call, 10000 whole rows per grid point; normalizing a row needs that row
    only, so the ten written blocks make up the table's normalized table (Proof/KernelBlock.lean, Proof/KernelArray.lean).
    The reference normalizes on the host: index by index the same function (Proof/RefValue.lean, over Proof/NormTable.lean).
  * The kernel program then gathers rows through a guarded gather (a fill constant where a start index, moved up by
    100000 when negative, falls outside [0, 99999]) and applies `d` after gathering; the reference applies `d` to the whole
    table and gathers without a guard. A gather of whole rows commutes with the per-feature factor, and the precondition
    — every index in [−100000, 100000), the range outside which the reference itself indexes out of range — puts every
    moved start index in [0, 99999] (Proof/IndexRange.lean), so the guard never fires: the two per-edge products agree
    (Proof/EdgeDot.lean). What both programs do with the product is one function of it, never opened.

  No law of the extended reals beyond `0 + x = x` is used, and the finiteness part of the precondition is not used.
  The three frames are the generated ones (the reference's is its generated run with the result dropped); the kernel's
  idealization rewrote nothing, so `preserves` is `True`.
-/
import proofs.«430502_j6597069767219_2_alg».proof.Defs
import proofs.«430502_j6597069767219_2_alg».proof.Proof.Gen.Kernel
import proofs.«430502_j6597069767219_2_alg».proof.Proof.Gen.Kernel.Skeleton
import proofs.«430502_j6597069767219_2_alg».proof.Proof.Gen.Kernel.Launch
import proofs.«430502_j6597069767219_2_alg».proof.Proof.Gen.Kernel.Points
import proofs.«430502_j6597069767219_2_alg».proof.Proof.Gen.Kernel.Frame
import proofs.«430502_j6597069767219_2_alg».proof.Proof.Gen.KernelIdeal
import proofs.«430502_j6597069767219_2_alg».proof.Proof.Gen.KernelIdeal.Skeleton
import proofs.«430502_j6597069767219_2_alg».proof.Proof.Gen.KernelIdeal.Launch
import proofs.«430502_j6597069767219_2_alg».proof.Proof.Gen.KernelIdeal.Points
import proofs.«430502_j6597069767219_2_alg».proof.Proof.Gen.KernelIdeal.Frame
import proofs.«430502_j6597069767219_2_alg».proof.Proof.Gen.ReferenceIdeal
import proofs.«430502_j6597069767219_2_alg».proof.Proof.Gen.Pre_finite_inputs
import proofs.«430502_j6597069767219_2_alg».proof.Proof.Gen.ReferenceIdeal.Run
import proofs.«430502_j6597069767219_2_alg».proof.Proof.Gen.ReferenceIdeal.Read
import proofs.«430502_j6597069767219_2_alg».proof.Proof.IndexRange
import proofs.«430502_j6597069767219_2_alg».proof.Proof.EdgeDot
import proofs.«430502_j6597069767219_2_alg».proof.Proof.NormTable
import proofs.«430502_j6597069767219_2_alg».proof.Proof.KernelArray
import proofs.«430502_j6597069767219_2_alg».proof.Proof.KernelTail
import proofs.«430502_j6597069767219_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.EdgeDot Cert.NormTable

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The index range, from the precondition -/

/-- Under the precondition, on every device both index vectors' moved start indices lie in [0, 99999]. -/
theorem ranges (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ e : Fin 1600000,
        IntOp.cmpi .sge (wrapWord ((m ((c.tc : Thread Cert.KernelIdeal.nD Cert.KernelIdeal.τ).loc Cert.KernelIdeal.main_arg1) : IVec SE 32) (ix1 e))) 0#32 = 1#1
        ∧ IntOp.cmpi .sle (wrapWord ((m ((c.tc : Thread Cert.KernelIdeal.nD Cert.KernelIdeal.τ).loc Cert.KernelIdeal.main_arg1) : IVec SE 32) (ix1 e))) 99999#32 = 1#1)
    ∧ (∀ e : Fin 1600000,
        IntOp.cmpi .sge (wrapWord ((m ((c.tc : Thread Cert.KernelIdeal.nD Cert.KernelIdeal.τ).loc Cert.KernelIdeal.main_arg2) : IVec SE 32) (ix1 e))) 0#32 = 1#1
        ∧ IntOp.cmpi .sle (wrapWord ((m ((c.tc : Thread Cert.KernelIdeal.nD Cert.KernelIdeal.τ).loc Cert.KernelIdeal.main_arg2) : IVec SE 32) (ix1 e))) 99999#32 = 1#1) :=
  ⟨fun e => Cert.IndexRange.wrap_inRange _
      (Cert.IndexRange.src_range _ _ _ _ _ (hpre c) (ix1 e)).1 (Cert.IndexRange.src_range _ _ _ _ _ (hpre c) (ix1 e)).2,
    fun e => Cert.IndexRange.wrap_inRange _
      (Cert.IndexRange.dst_range _ _ _ _ _ (hpre c) (ix1 e)).1 (Cert.IndexRange.dst_range _ _ _ _ _ (hpre c) (ix1 e)).2⟩

/-! ## The two runs, each result at the same function of the arguments -/

/-- The kernel program's run: its result is the common ending of the scaled product over the launched table's normalized
    table, and its arguments end unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11)
          = edgeTail (prodScaled
              (normTable (n := 100000) (m ((c.tc : Thread Cert.KernelIdeal.nD Cert.KernelIdeal.τ).loc Cert.KernelIdeal.main_arg0)))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3)))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
    ⟨((h c).2 Cert.KernelIdeal.main_v11 (Pipeline.mem_restRefs_of Cert.KernelIdeal.main_v11 (by decide) (by decide))).trans
        ((Cert.KernelIdeal.Tail.result_eq m c).trans (by
          rw [Cert.KernelIdeal.Array.final m c,
            prodGuarded_eq_prodScaled _ _ _ _ (ranges m hpre c).1 (ranges m hpre c).2])),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c)⟩)
    (Cert.KernelIdeal.Gen.run_main m ρ)

/-- The reference's run: its result is the same function of its own arguments, which end unchanged. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v27)
          = edgeTail (prodScaled
              (normTable (n := 100000) (m' ((c.tc : Thread Cert.ReferenceIdeal.nD Cert.ReferenceIdeal.τ).loc Cert.ReferenceIdeal.main_arg0)))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3)))
              (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun r h c =>
    ⟨(h c).1.trans ((Cert.ReferenceIdeal.Read.val_main_v27_eq _ _ _ _ _).trans
        ((Cert.ReferenceIdeal.RefValue.result_eq _ _ _ _ _).trans (by rw [Cert.ReferenceIdeal.RefValue.table_eq]))),
      (h c).2⟩)
    (Cert.ReferenceIdeal.Value.run (F := Ideal) m' ρ')

/-! ## The claims -/

/-- From memories agreeing on the arguments both programs end at the one function of them. -/
theorem algebraic : Cert.algebraic_KernelIdeal_ReferenceIdeal := by
  intro m ρ m' ρ' hpre hagree
  refine ⟨_, kernel_run m ρ hpre, ?_⟩
  refine (θ_run Cert.ReferenceIdeal.defs _ _).mono (fun r h c => ⟨(h c).1.trans ?_, (h c).2⟩) (reference_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
